-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S5000x64 : Shape := ⟨2, ![5000, 64]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 87
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .f32⟩
  | .hbm, ⟨11, _⟩ => ⟨S1250000, .f32⟩
  | .hbm, ⟨12, _⟩ => ⟨S_, .f32⟩
  | .hbm, ⟨13, _⟩ => ⟨S100000, .f32⟩
  | .hbm, ⟨14, _⟩ => ⟨S1250000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1250000, .i32⟩
  | .hbm, ⟨29, _⟩ => ⟨S1250000, .i1⟩
  | .hbm, ⟨30, _⟩ => ⟨S_, .i32⟩
  | .hbm, ⟨31, _⟩ => ⟨S1250000, .i32⟩
  | .hbm, ⟨32, _⟩ => ⟨S1250000, .i32⟩
  | .hbm, ⟨33, _⟩ => ⟨S1250000, .i32⟩
  | .hbm, ⟨34, _⟩ => ⟨S1250000x1, .i32⟩
  | .hbm, ⟨35, _⟩ => ⟨S1250000x64, .f32⟩
  | .hbm, ⟨36, _⟩ => ⟨S_, .i32⟩
  | .hbm, ⟨37, _⟩ => ⟨S1250000, .i32⟩
  | .hbm, ⟨38, _⟩ => ⟨S1250000, .i1⟩
  | .hbm, ⟨39, _⟩ => ⟨S_, .i32⟩
  | .hbm, ⟨40, _⟩ => ⟨S1250000, .i32⟩
  | .hbm, ⟨41, _⟩ => ⟨S1250000, .i32⟩
  | .hbm, ⟨42, _⟩ => ⟨S1250000, .i32⟩
  | .hbm, ⟨43, _⟩ => ⟨S1250000x1, .i32⟩
  | .hbm, ⟨44, _⟩ => ⟨S1250000, .f32⟩
  | .hbm, ⟨45, _⟩ => ⟨S1250000x1, .f32⟩
  | .hbm, ⟨46, _⟩ => ⟨S1250000x64, .f32⟩
  | .hbm, ⟨47, _⟩ => ⟨S1250000x64, .f32⟩
  | .hbm, ⟨48, _⟩ => ⟨S_, .f32⟩
  | .hbm, ⟨49, _⟩ => ⟨S100000x64, .f32⟩
  | .hbm, ⟨50, _⟩ => ⟨S1250000x1, .i32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S_, .i32⟩
  | .hbm, ⟨58, _⟩ => ⟨S1250000, .i32⟩
  | .hbm, ⟨59, _⟩ => ⟨S1250000, .i1⟩
  | .hbm, ⟨60, _⟩ => ⟨S_, .i32⟩
  | .hbm, ⟨61, _⟩ => ⟨S1250000, .i32⟩
  | .hbm, ⟨62, _⟩ => ⟨S1250000, .i32⟩
  | .hbm, ⟨63, _⟩ => ⟨S1250000, .i32⟩
  | .hbm, ⟨64, _⟩ => ⟨S1250000x1, .i32⟩
  | .hbm, ⟨65, _⟩ => ⟨S1250000x64, .f32⟩
  | .hbm, ⟨66, _⟩ => ⟨S_, .i32⟩
  | .hbm, ⟨67, _⟩ => ⟨S1250000, .i32⟩
  | .hbm, ⟨68, _⟩ => ⟨S1250000, .i1⟩
  | .hbm, ⟨69, _⟩ => ⟨S_, .i32⟩
  | .hbm, ⟨70, _⟩ => ⟨S1250000, .i32⟩
  | .hbm, ⟨71, _⟩ => ⟨S1250000, .i32⟩
  | .hbm, ⟨72, _⟩ => ⟨S1250000, .i32⟩
  | .hbm, ⟨73, _⟩ => ⟨S1250000x1, .i32⟩
  | .hbm, ⟨74, _⟩ => ⟨S1250000, .f32⟩
  | .hbm, ⟨75, _⟩ => ⟨S1250000x1, .f32⟩
  | .hbm, ⟨76, _⟩ => ⟨S1250000x64, .f32⟩
  | .hbm, ⟨77, _⟩ => ⟨S1250000x64, .f32⟩
  | .hbm, ⟨78, _⟩ => ⟨S_, .f32⟩
  | .hbm, ⟨79, _⟩ => ⟨S100000x64, .f32⟩
  | .hbm, ⟨80, _⟩ => ⟨S1250000x1, .i32⟩
  | .hbm, ⟨81, _⟩ => ⟨S100000x64, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S1x32, .f32⟩
  | .hbm, ⟨86, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x32, .f32⟩
  | .local _ .vmem, ⟨9, _⟩ => ⟨S1x32, .f32⟩
  | .local _ .vmem, ⟨10, _⟩ => ⟨S5000x32, .f32⟩
  | .local _ .vmem, ⟨11, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  gather_S100000_S1250000x1_S1250000_n_0_n_n_0_1_1_wf : GatherDims.WF S100000 S1250000x1 S1250000 [] [0] [] [0] [] 1 ![1]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v36) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v61) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .f32⟩
  | .hbm, ⟨11, _⟩ => ⟨S1250000, .f32⟩
  | .hbm, ⟨12, _⟩ => ⟨S_, .f32⟩
  | .hbm, ⟨13, _⟩ => ⟨S100000, .f32⟩
  | .hbm, ⟨14, _⟩ => ⟨S1250000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1250000, .i32⟩
  | .hbm, ⟨29, _⟩ => ⟨S1250000, .i1⟩
  | .hbm, ⟨30, _⟩ => ⟨S_, .i32⟩
  | .hbm, ⟨31, _⟩ => ⟨S1250000, .i32⟩
  | .hbm, ⟨32, _⟩ => ⟨S1250000, .i32⟩
  | .hbm, ⟨33, _⟩ => ⟨S1250000, .i32⟩
  | .hbm, ⟨34, _⟩ => ⟨S1250000x1, .i32⟩
  | .hbm, ⟨35, _⟩ => ⟨S1250000x64, .f32⟩
  | .hbm, ⟨36, _⟩ => ⟨S_, .i32⟩
  | .hbm, ⟨37, _⟩ => ⟨S1250000, .i32⟩
  | .hbm, ⟨38, _⟩ => ⟨S1250000, .i1⟩
  | .hbm, ⟨39, _⟩ => ⟨S_, .i32⟩
  | .hbm, ⟨40, _⟩ => ⟨S1250000, .i32⟩
  | .hbm, ⟨41, _⟩ => ⟨S1250000, .i32⟩
  | .hbm, ⟨42, _⟩ => ⟨S1250000, .i32⟩
  | .hbm, ⟨43, _⟩ => ⟨S1250000x1, .i32⟩
  | .hbm, ⟨44, _⟩ => ⟨S1250000, .f32⟩
  | .hbm, ⟨45, _⟩ => ⟨S1250000x1, .f32⟩
  | .hbm, ⟨46, _⟩ => ⟨S1250000x64, .f32⟩
  | .hbm, ⟨47, _⟩ => ⟨S1250000x64, .f32⟩
  | .hbm, ⟨48, _⟩ => ⟨S_, .f32⟩
  | .hbm, ⟨49, _⟩ => ⟨S100000x64, .f32⟩
  | .hbm, ⟨50, _⟩ => ⟨S1250000x1, .i32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1250000, .i32⟩
  | .hbm, ⟨64, _⟩ => ⟨S1250000, .i1⟩
  | .hbm, ⟨65, _⟩ => ⟨S_, .i32⟩
  | .hbm, ⟨66, _⟩ => ⟨S1250000, .i32⟩
  | .hbm, ⟨67, _⟩ => ⟨S1250000, .i32⟩
  | .hbm, ⟨68, _⟩ => ⟨S1250000, .i32⟩
  | .hbm, ⟨69, _⟩ => ⟨S1250000x1, .i32⟩
  | .hbm, ⟨70, _⟩ => ⟨S1250000x64, .f32⟩
  | .hbm, ⟨71, _⟩ => ⟨S_, .i32⟩
  | .hbm, ⟨72, _⟩ => ⟨S1250000, .i32⟩
  | .hbm, ⟨73, _⟩ => ⟨S1250000, .i1⟩
  | .hbm, ⟨74, _⟩ => ⟨S_, .i32⟩
  | .hbm, ⟨75, _⟩ => ⟨S1250000, .i32⟩
  | .hbm, ⟨76, _⟩ => ⟨S1250000, .i32⟩
  | .hbm, ⟨77, _⟩ => ⟨S1250000, .i32⟩
  | .hbm, ⟨78, _⟩ => ⟨S1250000x1, .i32⟩
  | .hbm, ⟨79, _⟩ => ⟨S1250000, .f32⟩
  | .hbm, ⟨80, _⟩ => ⟨S1250000x1, .f32⟩
  | .hbm, ⟨81, _⟩ => ⟨S1250000x64, .f32⟩
  | .hbm, ⟨82, _⟩ => ⟨S1250000x64, .f32⟩
  | .hbm, ⟨83, _⟩ => ⟨S_, .f32⟩
  | .hbm, ⟨84, _⟩ => ⟨S100000x64, .f32⟩
  | .hbm, ⟨85, _⟩ => ⟨S1250000x1, .i32⟩
  | .hbm, ⟨86, _⟩ => ⟨S100000x64, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S100000x32, .f32⟩
  | .hbm, ⟨91, _⟩ => ⟨S1x32, .f32⟩
  | .hbm, ⟨92, _⟩ => ⟨S100000x32, .f32⟩
  | .hbm, ⟨93, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  gather_S100000_S1250000x1_S1250000_n_0_n_n_0_1_1_wf : GatherDims.WF S100000 S1250000x1 S1250000 [] [0] [] [0] [] 1 ![1]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelHost.lean ====
/-
  The host operations of the kernel's program around its two regions, read as the reference's own stage functions.

  Before the first region the program computes, from the node features `x` and the edge array `e`: the two endpoint
  vectors of the edges, the degree normalisation of the nodes, and the normalised aggregate
      A(x, e) = (scatter-add over the edges' targets of x[source] · norm[source]) · norm,
  and reshapes the bias vector into a row. Between the regions it computes the SAME aggregate of the first region's
  output. These are, operation for operation, the reference's host operations; so each buffer is stated at the
  reference's stage function of the launch contents (its `val_…` read off its own program), for ANY launch contents
  `W` and any reading `F` of the floats: nothing of the aggregation is opened, the two programs' operation chains are
  only compared. The one place the two differ: the kernel's program RESHAPES a bias vector `[d]` into the row `[1, d]`
  where the reference BROADCASTS it into one; both rows hold `b(j)` at `(0, j)`.
-/
import proofs.«132676_j90486370992276_1_alg».proof.Proof.Gen.KernelIdeal.Frame
import proofs.«132676_j90486370992276_1_alg».proof.Proof.RefRead
import Idealize.ShloMosaic.Lib.StableHlo.Run
import Idealize.ShloMosaic.Lib.Pipeline.Value

set_option maxRecDepth 16384

noncomputable section

namespace Cert.KernelIdeal.HostStretch

open Idealize.ShloMosaic Idealize.ShloMosaic.TcCoe Idealize.SL.Sem Idealize.ShloMosaic.StableHlo
open Cert.KernelIdeal Cert.KernelIdeal.Gen
open Cert.ReferenceIdeal.ReadP (val_main_v1 val_main_v3 val_main_v13 val_main_v36 val_main_v38 val_main_v66 idx_main_v38 idx_main_v66 val_main_v38_apply val_main_v66_apply)

variable {F : FTy → Type} [FloatOps F]

/-! ## At the first region's entry: the three opening stretches, from any launch contents -/

set_option maxHeartbeats 8000000 in
/-- The aggregated features: the reference's aggregate of the launch's features and edges. -/
theorem entry_feats (W : Valuation τ sig (Elt F)) :
    StableHlo.after (hostOps0_2 (F := F)) (StableHlo.after (hostOps0_1 (F := F)) (StableHlo.after (hostOps0 (F := F)) W)) (Proc.devRef .tc main_v36) = val_main_v36 (F := F) (W (Proc.devRef .tc main_arg0)) (W (Proc.devRef .tc main_arg1)) := by
  after_results_simp <;> (try simp only [TRef.ofBuf, TRef.toBuf, cast_eq]) <;> rfl

set_option maxHeartbeats 8000000 in
/-- The first layer's weights: as launched. -/
theorem entry_weights (W : Valuation τ sig (Elt F)) : StableHlo.after (hostOps0_2 (F := F)) (StableHlo.after (hostOps0_1 (F := F)) (StableHlo.after (hostOps0 (F := F)) W)) (Proc.devRef .tc main_arg2) = W (Proc.devRef .tc main_arg2) := by
  after_results_simp <;> (try simp only [TRef.ofBuf, TRef.toBuf, cast_eq]) <;> rfl

set_option maxHeartbeats 8000000 in
/-- The first layer's bias row: the launched vector reshaped. -/
theorem entry_bias (W : Valuation τ sig (Elt F)) :
    StableHlo.after (hostOps0_2 (F := F)) (StableHlo.after (hostOps0_1 (F := F)) (StableHlo.after (hostOps0 (F := F)) W)) (Proc.devRef .tc main_v37) = shapeCast S1x64 (W (Proc.devRef .tc main_arg3)) shapeCasts_S64_S1x64 := by
  after_results_simp <;> (try simp only [TRef.ofBuf, TRef.toBuf, cast_eq]) <;> rfl

set_option maxHeartbeats 8000000 in
/-- The edges' sources, … -/
theorem entry_src (W : Valuation τ sig (Elt F)) : StableHlo.after (hostOps0_2 (F := F)) (StableHlo.after (hostOps0_1 (F := F)) (StableHlo.after (hostOps0 (F := F)) W)) (Proc.devRef .tc main_v1) = val_main_v1 (F := F) (W (Proc.devRef .tc main_arg1)) := by
  after_results_simp <;> (try simp only [TRef.ofBuf, TRef.toBuf, cast_eq]) <;> rfl

set_option maxHeartbeats 8000000 in
/-- … their targets, … -/
theorem entry_dst (W : Valuation τ sig (Elt F)) : StableHlo.after (hostOps0_2 (F := F)) (StableHlo.after (hostOps0_1 (F := F)) (StableHlo.after (hostOps0 (F := F)) W)) (Proc.devRef .tc main_v3) = val_main_v3 (F := F) (W (Proc.devRef .tc main_arg1)) := by
  after_results_simp <;> (try simp only [TRef.ofBuf, TRef.toBuf, cast_eq]) <;> rfl

set_option maxHeartbeats 8000000 in
/-- … and the nodes' normalisation: the reference's, of the launch's edges. -/
theorem entry_norm (W : Valuation τ sig (Elt F)) : StableHlo.after (hostOps0_2 (F := F)) (StableHlo.after (hostOps0_1 (F := F)) (StableHlo.after (hostOps0 (F := F)) W)) (Proc.devRef .tc main_v13) = val_main_v13 (F := F) (W (Proc.devRef .tc main_arg1)) := by
  after_results_simp <;> (try simp only [TRef.ofBuf, TRef.toBuf, cast_eq]) <;> rfl

set_option maxHeartbeats 8000000 in
/-- The second layer's weights and bias vector: as launched. -/
theorem entry_weights2 (W : Valuation τ sig (Elt F)) : StableHlo.after (hostOps0_2 (F := F)) (StableHlo.after (hostOps0_1 (F := F)) (StableHlo.after (hostOps0 (F := F)) W)) (Proc.devRef .tc main_arg4) = W (Proc.devRef .tc main_arg4) := by
  after_results_simp <;> (try simp only [TRef.ofBuf, TRef.toBuf, cast_eq]) <;> rfl
set_option maxHeartbeats 8000000 in
theorem entry_bias2 (W : Valuation τ sig (Elt F)) : StableHlo.after (hostOps0_2 (F := F)) (StableHlo.after (hostOps0_1 (F := F)) (StableHlo.after (hostOps0 (F := F)) W)) (Proc.devRef .tc main_arg5) = W (Proc.devRef .tc main_arg5) := by
  after_results_simp <;> (try simp only [TRef.ofBuf, TRef.toBuf, cast_eq]) <;> rfl

/-! ## At the second region's entry: the stretch between the regions, from any contents at the first region's exit -/

set_option maxHeartbeats 8000000 in
/-- The aggregated hidden features: the SAME aggregate, of the first region's output, when the endpoints and the
    normalisation still stand in their buffers as the edges' (`h1`, `h3`, `h13`). -/
theorem mid_feats (W : Valuation τ sig (Elt F)) (e : (⟨Cert.ReferenceIdeal.S2x1250000, .i32⟩ : BufTy).Contents (Elt F))
    (h1 : W (Proc.devRef .tc main_v1) = val_main_v1 (F := F) e)
    (h3 : W (Proc.devRef .tc main_v3) = val_main_v3 (F := F) e)
    (h13 : W (Proc.devRef .tc main_v13) = val_main_v13 (F := F) e) :
    StableHlo.after (hostOps1 (F := F)) W (Proc.devRef .tc main_v61) = val_main_v36 (F := F) (W (Proc.devRef .tc main_v38)) e := by
  after_results_simp
  rw [h1, h3, h13]
  rfl

set_option maxHeartbeats 8000000 in
/-- The second layer's weights: untouched by the stretch. -/
theorem mid_weights (W : Valuation τ sig (Elt F)) : StableHlo.after (hostOps1 (F := F)) W (Proc.devRef .tc main_arg4) = W (Proc.devRef .tc main_arg4) := by
  after_results_simp <;> (try simp only [TRef.ofBuf, TRef.toBuf, cast_eq]) <;> rfl

set_option maxHeartbeats 8000000 in
/-- The second layer's bias row: the vector reshaped. -/
theorem mid_bias (W : Valuation τ sig (Elt F)) :
    StableHlo.after (hostOps1 (F := F)) W (Proc.devRef .tc main_v62) = shapeCast S1x32 (W (Proc.devRef .tc main_arg5)) shapeCasts_S32_S1x32 := by
  after_results_simp <;> (try simp only [TRef.ofBuf, TRef.toBuf, cast_eq]) <;> rfl

/-! ## A bias vector reshaped into a row is the vector broadcast into a row -/

/-- Width 64: both rows hold `b(j)` at `(0, j)`. -/
theorem row64_eq (b : (⟨S64, .f32⟩ : BufTy).Contents (Elt F)) : shapeCast S1x64 b shapeCasts_S64_S1x64 = val_main_v38 (F := F) b := by
  funext i
  rw [val_main_v38_apply]
  exact shapeCast_apply b shapeCasts_S64_S1x64 i (idx_main_v38 i) (by
    rw [Shape.rowMajor_val_one, Shape.rowMajor_val_two]
    have h0 : (i 0).val < 1 := (i 0).isLt
    show (i 1).val = (i 0).val * 64 + (i 1).val
    omega)

/-- Width 32: likewise. -/
theorem row32_eq (b : (⟨S32, .f32⟩ : BufTy).Contents (Elt F)) : shapeCast S1x32 b shapeCasts_S32_S1x32 = val_main_v66 (F := F) b := by
  funext i
  rw [val_main_v66_apply]
  exact shapeCast_apply b shapeCasts_S32_S1x32 i (idx_main_v66 i) (by
    rw [Shape.rowMajor_val_one, Shape.rowMajor_val_two]
    have h0 : (i 0).val < 1 := (i 0).isLt
    show (i 1).val = (i 0).val * 32 + (i 1).val
    omega)

end Cert.KernelIdeal.HostStretch

end
-- ==== Proof.DenseSpec.lean ====
/-
  One graph-convolution dense layer as a function of whole arrays, index by index, at the exact (extended-real)
  reading of floats.

  For node features `a : [100000, 64]`, weights `w : [64, d]` and a bias row `b : [1, d]`, the layer's entry at
  node `i`, column `j` is `∑ₖ a(i,k) · w(k,j) + b(0,j)`, the sum over the 64 feature coordinates; the hidden layer
  (d = 64) then takes the maximum with zero, the output layer (d = 32) does not. A tiling of the node axis does not
  enter: an entry depends on row `i` of `a` only, so any cover of the rows by blocks computes the same array.
  The bias is kept as a row `[1, d]` because that is the array a blocked computation stages; `biasRow` is that row
  made from a vector `[d]`.
-/
import Idealize.ShloMosaic.PureOps.Ideal
import Idealize.ShloMosaic.Lib.ValueIdx

noncomputable section

namespace GcnDense

open Idealize.ShloMosaic Idealize.ShloMosaic.ValueIdx

abbrev Nodes64 : Shape := ⟨2, ![100000, 64]⟩
abbrev Nodes32 : Shape := ⟨2, ![100000, 32]⟩
abbrev W64x64 : Shape := ⟨2, ![64, 64]⟩
abbrev W64x32 : Shape := ⟨2, ![64, 32]⟩
abbrev Row64 : Shape := ⟨2, ![1, 64]⟩
abbrev Row32 : Shape := ⟨2, ![1, 32]⟩

/-- The bias entry of column `j`: the row's only line, at `j`. -/
abbrev rowAt {d : Nat} (j : Fin d) : (⟨2, ![1, d]⟩ : Shape).Idx := ix2 (⟨0, Nat.one_pos⟩ : Fin 1) j

/-- The affine part of the hidden layer at node `p`, column `q`: `∑ₖ a(p,k) · w(k,q) + b(0,q)`. -/
def affine64 (a : FVec Ideal Nodes64 .f32) (w : FVec Ideal W64x64 .f32) (b : FVec Ideal Row64 .f32)
    (p : Fin 100000) (q : Fin 64) : EReal :=
  FloatOps.addf (F := Ideal) (φ := .f32) (∑ k : Fin 64, a (ix2 p k) * w (ix2 k q)) (b (rowAt q))

/-- The hidden layer: the affine part, then the maximum with zero. -/
def hidden (a : FVec Ideal Nodes64 .f32) (w : FVec Ideal W64x64 .f32) (b : FVec Ideal Row64 .f32) :
    FVec Ideal Nodes64 .f32 :=
  fun i => FloatOps.maximumf (F := Ideal) (φ := .f32) (affine64 a w b (i 0) (i 1)) (FloatOps.ofBits .f32 0x00000000#32)

/-- The output layer at node `p`, column `q`: `∑ₖ a(p,k) · w(k,q) + b(0,q)`, no activation. -/
def output (a : FVec Ideal Nodes64 .f32) (w : FVec Ideal W64x32 .f32) (b : FVec Ideal Row32 .f32) :
    FVec Ideal Nodes32 .f32 :=
  fun i => FloatOps.addf (F := Ideal) (φ := .f32) (∑ k : Fin 64, a (ix2 (i 0) k) * w (ix2 k (i 1))) (b (rowAt (i 1)))

end GcnDense

end
-- ==== Proof.HiddenRegion.lean ====
/-
  The hidden layer's region: what the first pallas_call leaves in its output array, as a function of the arrays it is
  entered with.

  The call walks the node axis in 20 blocks of 5000 rows. At point `t` the body reads rows `5000·t … 5000·t + 4999`
  of the aggregated features `a : [100000, 64]`, the whole weight matrix `w : [64, 64]` and the whole bias row
  `b : [1, 64]`, and stores, at row `y₀`, column `y₁` of its output block,
      max (∑ₖ a(5000·t + y₀, k) · w(k, y₁) + b(0, y₁)) 0,
  the matrix unit's product into a zero accumulator read at the exact instance as the plain sum over the 64 features
  (the narrowing of the operands to bf16 is the identity there). That is entry `(5000·t + y₀, y₁)` of
  `GcnDense.hidden a w b`: the block is a restriction of ONE whole-array function. The 20 blocks cover every row
  (row `r` lies in block `r / 5000`), so after the region the output array IS `GcnDense.hidden a w b`.
  Everything is stated at the region-entry contents `V`, a parameter.
-/
import proofs.«132676_j90486370992276_1_alg».proof.Proof.Gen.KernelIdeal.Frame
import proofs.«132676_j90486370992276_1_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.KernelIdeal.HiddenRegion

open Idealize.ShloMosaic Idealize.ShloMosaic.TcCoe Idealize.SL.Sem Idealize.ShloMosaic.Pipeline
open Cert.KernelIdeal Cert.KernelIdeal.Gen GcnDense

/-! ## The body's stored value at an entry of the block -/

/-- Entry `i` of the product reads the left block at (row of `i`, feature `k`) … -/
abbrev lrow (i : S5000x64.Idx) (k : Fin 64) : S5000x64.Idx := fun a => match a with
  | ⟨0, _⟩ => ⟨(i 0).val, (i 0).isLt⟩
  | ⟨1, _⟩ => ⟨k.val, k.isLt⟩
/-- … and the weights at (feature `k`, column of `i`). -/
abbrev rcol (i : S5000x64.Idx) (k : Fin 64) : S64x64.Idx := fun a => match a with
  | ⟨0, _⟩ => ⟨k.val, k.isLt⟩
  | ⟨1, _⟩ => ⟨(i 1).val, (i 1).isLt⟩
/-- The bias entry an output entry adds: the row's only line, at the entry's column. -/
abbrev bcol (i : S5000x64.Idx) : S1x64.Idx := fun a => match a with
  | ⟨0, _⟩ => ⟨0, Nat.one_pos⟩
  | ⟨1, _⟩ => ⟨(i 1).val, (i 1).isLt⟩

/-- The left operand's index of the product, axis by axis: the row is the output entry's … -/
theorem lhs_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … the column is the contracted coordinate. -/
theorem lhs_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- The right operand's: the row is the contracted coordinate … -/
theorem rhs_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
/-- … the column is the output entry's. -/
theorem rhs_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix unit's product into a zero accumulator, at an entry: the sum over the 64 features. -/
theorem matmul_at (x : FVec Ideal S5000x64 .bf16) (w : FVec Ideal S64x64 .bf16) (i : S5000x64.Idx) :
    matmul dot_S5000x64_S64x64_S5000x64_1_0_0_1_n_n none x w (constant (F := Ideal) S5000x64 .f32 0x00000000#32) i = ∑ k : Fin 64, x (lrow i k) * w (rcol i k) := by
  refine (Ideal.matmul_constant_zero_apply dot_S5000x64_S64x64_S5000x64_1_0_0_1_n_n none x w i).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = lrow i k := funext fun a => Fin.ext (by
    match a with
    | ⟨0, _⟩ => exact lhs_0 _ _
    | ⟨1, _⟩ => exact (lhs_1 _ _).trans hk)
  have er : dot_S5000x64_S64x64_S5000x64_1_0_0_1_n_n.rhsIdx i ((ValueIdx.contrEquiv1 dot_S5000x64_S64x64_S5000x64_1_0_0_1_n_n 64 rfl rfl).symm k) = rcol i k := funext fun a => Fin.ext (by
    match a with
    | ⟨0, _⟩ => exact (rhs_0 _ _).trans hk
    | ⟨1, _⟩ => exact rhs_1 _ _)
  rw [el, er]

/-- The bias row spread over the block, at an entry: the row at the entry's column. -/
theorem bias_at (x2 : Vec Ideal S1x64 .f32) (i : S5000x64.Idx) :
    broadcastTo S5000x64 (shapeCast S1x64 x2 shapeCasts_S1x64_S1x64) broadcasts_S1x64_S5000x64 i = x2 (bcol i) := by
  rw [shapeCast_self]
  exact broadcastTo_apply x2 broadcasts_S1x64_S5000x64 i (bcol i) (fun a => by
    match a with
    | ⟨0, _⟩ => rfl
    | ⟨1, _⟩ => rfl)

/-- THE STORED VALUE at an entry of the block, from the three loaded blocks: the sum over the features of the
    row's entries times the column's weights, plus the column's bias, then the maximum with zero. -/
theorem pay_at (x0 : Vec Ideal S5000x64 .f32) (x1 : Vec Ideal S64x64 .f32) (x2 : Vec Ideal S1x64 .f32) (i : S5000x64.Idx) :
    k0_pay1 (F := Ideal) x0 x1 x2 i
      = FloatOps.maximumf (F := Ideal) (φ := .f32)
          (FloatOps.addf (F := Ideal) (φ := .f32) (∑ k : Fin 64, x0 (lrow i k) * x1 (rcol i k)) (x2 (bcol i)))
          (FloatOps.ofBits .f32 0x00000000#32) := by
  unfold k0_pay1
  show FloatOps.maximumf (F := Ideal) (φ := .f32)
      (FloatOps.addf (F := Ideal) (φ := .f32)
        (matmul dot_S5000x64_S64x64_S5000x64_1_0_0_1_n_n none (truncf .bf16 (shapeCast S5000x64 x0 shapeCasts_S5000x64_S5000x64) bitsLt_bf16_f32) (truncf .bf16 x1 bitsLt_bf16_f32) (constant (F := Ideal) S5000x64 .f32 0x00000000#32) i)
        (broadcastTo S5000x64 (shapeCast S1x64 x2 shapeCasts_S1x64_S1x64) broadcasts_S1x64_S5000x64 i))
      (FloatOps.ofBits .f32 0x00000000#32) = _
  rw [matmul_at, bias_at, shapeCast_self]
  rfl

/-! ## Which rows a point's blocks are -/

theorem zeroOff : (![0, 0] : Fin 2 → Nat) = fun _ => 0 := funext fun a => by fin_cases a <;> rfl

/-- The printed index maps, decided once over the 20 points: the feature window and the output window sit at block
    row `t`, column 0; the weights and the bias row are one block, at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The arrays the region reads, as it finds them, each under a name of its literal type: the aggregated features, … -/
abbrev feats (c : Dev nD) : Vec Ideal S100000x64 .f32 := V c main_v36
/-- … the weights, … -/
abbrev weights (c : Dev nD) : Vec Ideal S64x64 .f32 := V c main_arg2
/-- … and the bias row. -/
abbrev biasRow (c : Dev nD) : Vec Ideal S1x64 .f32 := V c main_v37

/-- WHAT POINT `t` WRITES BACK is block `t` of the hidden layer of the arrays the region is entered with. -/
theorem flushed_eq (c : Dev nD) (t : Fin cfg0.N) :
    (dat0 V c).flushed 3 t = ((cfg0.win 3).blk t).view.read (Elt Ideal)
      (hidden (feats V c) (weights V c) (biasRow V c)) := by
  show (cfg0.win 3).cut (grid0.coords t) ((dat0 V c).after 3 t) = _
  rw [after0_3]
  unfold out0_3
  rw [View.canon_unit_zero zeroOff]
  simp only [View.ld_unit_zero (S := S5000x64) zeroOff, View.ld_unit_zero (S := S64x64) zeroOff, View.ld_unit_zero (S := S1x64) zeroOff]
  obtain ⟨e00, e01, e10, e11, e20, e21, e30, e31⟩ := idx_facts t
  funext j
  refine (pay_at _ _ _ j).trans ?_
  show FloatOps.maximumf (F := Ideal) (φ := .f32)
      (FloatOps.addf (F := Ideal) (φ := .f32)
        (∑ k : Fin 64, feats V c (((cfg0.win 0).blk t).view.emb (lrow j k)) * weights V c (((cfg0.win 1).blk t).view.emb (rcol j k)))
        (biasRow V c (((cfg0.win 2).blk t).view.emb (bcol j))))
      (FloatOps.ofBits .f32 0x00000000#32)
    = FloatOps.maximumf (F := Ideal) (φ := .f32)
      (FloatOps.addf (F := Ideal) (φ := .f32)
        (∑ k : Fin 64, feats V c (ValueIdx.ix2 ((((cfg0.win 3).blk t).view.emb j) 0) k) * weights V c (ValueIdx.ix2 k ((((cfg0.win 3).blk t).view.emb j) 1)))
        (biasRow V c (rowAt ((((cfg0.win 3).blk t).view.emb j) 1))))
      (FloatOps.ofBits .f32 0x00000000#32)
  have hA : ∀ k : Fin 64, ((cfg0.win 0).blk t).view.emb (lrow j k) = ValueIdx.ix2 ((((cfg0.win 3).blk t).view.emb j) 0) k := fun k => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  have hW : ∀ k : Fin 64, ((cfg0.win 1).blk t).view.emb (rcol j k) = ValueIdx.ix2 k ((((cfg0.win 3).blk t).view.emb j) 1) := fun k => by
    funext a; apply Fin.ext
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  have hB : ((cfg0.win 2).blk t).view.emb (bcol j) = rowAt ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega
  simp only [hA, hW, hB]
  rfl

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v38).slice (win0_3.rect t)).set ↔ _
  rw [View.set_slice_whole, Rect.mem_set_unit]
  exact Iff.rfl

/-- Every row lies in some point's block: row `r` in block `r / 5000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 5000, by show (i 0).val / 5000 < 20; omega⟩, flush0_3 _, ?_⟩
  rw [mem_blk]
  obtain ⟨e00, e01, e10, e11, e20, e21, e30, e31⟩ := idx_facts ⟨(i 0).val / 5000, by show (i 0).val / 5000 < 20; omega⟩
  intro a
  match a with
  | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
  | ⟨1, _⟩ => show win0_3.index _ (1 : Fin 2) * 64 ≤ (i 1).val ∧ (i 1).val < win0_3.index _ (1 : Fin 2) * 64 + 64; rw [e31]; omega

/-- THE OUTPUT ARRAY after the region: the hidden layer of the arrays the region is entered with. -/
theorem final (c : Dev nD) :
    (dat0 V c).arrAt 3 cfg0.N = hidden (feats V c) (weights V c) (biasRow V c) :=
  (dat0 V c).arrAt_eq_of_cover 3 _ (fun t _ => flushed_eq V c t) cover

end Cert.KernelIdeal.HiddenRegion

end
-- ==== Proof.OutputRegion.lean ====
/-
  The output layer's region: what the second pallas_call leaves in its output array, as a function of the arrays it
  is entered with.

  The call walks the node axis in 20 blocks of 5000 rows. At point `t` the body reads rows `5000·t … 5000·t + 4999`
  of the aggregated hidden features `a : [100000, 64]`, the whole weight matrix `w : [64, 32]` and the whole bias row
  `b : [1, 32]`, and stores, at row `y₀`, column `y₁` of its output block,
      ∑ₖ a(5000·t + y₀, k) · w(k, y₁) + b(0, y₁),
  the matrix unit's product into a zero accumulator read at the exact instance as the plain sum over the 64 features
  (the narrowing of the operands to bf16 is the identity there); no activation follows. That is entry
  `(5000·t + y₀, y₁)` of `GcnDense.output a w b`: the block is a restriction of ONE whole-array function. The 20
  blocks cover every row (row `r` lies in block `r / 5000`), so after the region the output array IS
  `GcnDense.output a w b`. Everything is stated at the region-entry contents `V`, a parameter.
-/
import proofs.«132676_j90486370992276_1_alg».proof.Proof.Gen.KernelIdeal.Frame
import proofs.«132676_j90486370992276_1_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.KernelIdeal.OutputRegion

open Idealize.ShloMosaic Idealize.ShloMosaic.TcCoe Idealize.SL.Sem Idealize.ShloMosaic.Pipeline
open Cert.KernelIdeal Cert.KernelIdeal.Gen GcnDense

/-! ## The body's stored value at an entry of the block -/

/-- Entry `i` of the product reads the left block at (row of `i`, feature `k`) … -/
abbrev lrow (i : S5000x32.Idx) (k : Fin 64) : S5000x64.Idx := fun a => match a with
  | ⟨0, _⟩ => ⟨(i 0).val, (i 0).isLt⟩
  | ⟨1, _⟩ => ⟨k.val, k.isLt⟩
/-- … and the weights at (feature `k`, column of `i`). -/
abbrev rcol (i : S5000x32.Idx) (k : Fin 64) : S64x32.Idx := fun a => match a with
  | ⟨0, _⟩ => ⟨k.val, k.isLt⟩
  | ⟨1, _⟩ => ⟨(i 1).val, (i 1).isLt⟩
/-- The bias entry an output entry adds: the row's only line, at the entry's column. -/
abbrev bcol (i : S5000x32.Idx) : S1x32.Idx := fun a => match a with
  | ⟨0, _⟩ => ⟨0, Nat.one_pos⟩
  | ⟨1, _⟩ => ⟨(i 1).val, (i 1).isLt⟩

/-- The left operand's index of the product, axis by axis: the row is the output entry's … -/
theorem lhs_0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- … the column is the contracted coordinate. -/
theorem lhs_1 (i : S5000x32.Idx) (q : dot_S5000x64_S64x32_S5000x32_1_0_0_1_n_n.contr.Idx) : (dot_S5000x64_S64x32_S5000x32_1_0_0_1_n_n.lhsIdx i q 1).val = (q ⟨0, by decide⟩).val :=
  dot_S5000x64_S64x32_S5000x32_1_0_0_1_n_n.lhsIdx_val_of_single rfl i q
/-- The right operand's: the row is the contracted coordinate … -/
theorem rhs_0 (i : S5000x32.Idx) (q : dot_S5000x64_S64x32_S5000x32_1_0_0_1_n_n.contr.Idx) : (dot_S5000x64_S64x32_S5000x32_1_0_0_1_n_n.rhsIdx i q 0).val = (q ⟨0, by decide⟩).val :=
  dot_S5000x64_S64x32_S5000x32_1_0_0_1_n_n.rhsIdx_val_of_single rfl i q
/-- … the column is the output entry's. -/
theorem rhs_1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The matrix unit's product into a zero accumulator, at an entry: the sum over the 64 features. -/
theorem matmul_at (x : FVec Ideal S5000x64 .bf16) (w : FVec Ideal S64x32 .bf16) (i : S5000x32.Idx) :
    matmul dot_S5000x64_S64x32_S5000x32_1_0_0_1_n_n none x w (constant (F := Ideal) S5000x32 .f32 0x00000000#32) i = ∑ k : Fin 64, x (lrow i k) * w (rcol i k) := by
  refine (Ideal.matmul_constant_zero_apply dot_S5000x64_S64x32_S5000x32_1_0_0_1_n_n none x w i).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx i ((ValueIdx.contrEquiv1 dot_S5000x64_S64x32_S5000x32_1_0_0_1_n_n 64 rfl rfl).symm k) = lrow i k := funext fun a => Fin.ext (by
    match a with
    | ⟨0, _⟩ => exact lhs_0 _ _
    | ⟨1, _⟩ => exact (lhs_1 _ _).trans hk)
  have er : dot_S5000x64_S64x32_S5000x32_1_0_0_1_n_n.rhsIdx i ((ValueIdx.contrEquiv1 dot_S5000x64_S64x32_S5000x32_1_0_0_1_n_n 64 rfl rfl).symm k) = rcol i k := funext fun a => Fin.ext (by
    match a with
    | ⟨0, _⟩ => exact (rhs_0 _ _).trans hk
    | ⟨1, _⟩ => exact rhs_1 _ _)
  rw [el, er]

/-- The bias row spread over the block, at an entry: the row at the entry's column. -/
theorem bias_at (x2 : Vec Ideal S1x32 .f32) (i : S5000x32.Idx) :
    broadcastTo S5000x32 (shapeCast S1x32 x2 shapeCasts_S1x32_S1x32) broadcasts_S1x32_S5000x32 i = x2 (bcol i) := by
  rw [shapeCast_self]
  exact broadcastTo_apply x2 broadcasts_S1x32_S5000x32 i (bcol i) (fun a => by
    match a with
    | ⟨0, _⟩ => rfl
    | ⟨1, _⟩ => rfl)

/-- THE STORED VALUE at an entry of the block, from the three loaded blocks: the sum over the features of the
    row's entries times the column's weights, plus the column's bias. -/
theorem pay_at (x0 : Vec Ideal S5000x64 .f32) (x1 : Vec Ideal S64x32 .f32) (x2 : Vec Ideal S1x32 .f32) (i : S5000x32.Idx) :
    k1_pay1 (F := Ideal) x0 x1 x2 i
      = FloatOps.addf (F := Ideal) (φ := .f32) (∑ k : Fin 64, x0 (lrow i k) * x1 (rcol i k)) (x2 (bcol i)) := by
  unfold k1_pay1
  show FloatOps.addf (F := Ideal) (φ := .f32)
        (matmul dot_S5000x64_S64x32_S5000x32_1_0_0_1_n_n none (truncf .bf16 (shapeCast S5000x64 x0 shapeCasts_S5000x64_S5000x64) bitsLt_bf16_f32) (truncf .bf16 x1 bitsLt_bf16_f32) (constant (F := Ideal) S5000x32 .f32 0x00000000#32) i)
        (broadcastTo S5000x32 (shapeCast S1x32 x2 shapeCasts_S1x32_S1x32) broadcasts_S1x32_S5000x32 i) = _
  rw [matmul_at, bias_at, shapeCast_self]
  rfl

/-! ## Which rows a point's blocks are -/

theorem zeroOff : (![0, 0] : Fin 2 → Nat) = fun _ => 0 := funext fun a => by fin_cases a <;> rfl

/-- The printed index maps, decided once over the 20 points: the feature window and the output window sit at block
    row `t`, column 0; the weights and the bias row are one block, at 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The arrays the region reads, as it finds them, each under a name of its literal type: the aggregated hidden
    features, … -/
abbrev feats (c : Dev nD) : Vec Ideal S100000x64 .f32 := V c main_v61
/-- … the weights, … -/
abbrev weights (c : Dev nD) : Vec Ideal S64x32 .f32 := V c main_arg4
/-- … and the bias row. -/
abbrev biasRow (c : Dev nD) : Vec Ideal S1x32 .f32 := V c main_v62

/-- WHAT POINT `t` WRITES BACK is block `t` of the output layer of the arrays the region is entered with. -/
theorem flushed_eq (c : Dev nD) (t : Fin cfg1.N) :
    (dat1 V c).flushed 3 t = ((cfg1.win 3).blk t).view.read (Elt Ideal)
      (output (feats V c) (weights V c) (biasRow V c)) := by
  show (cfg1.win 3).cut (grid1.coords t) ((dat1 V c).after 3 t) = _
  rw [after1_3]
  unfold out1_3
  rw [View.canon_unit_zero zeroOff]
  simp only [View.ld_unit_zero (S := S5000x64) zeroOff, View.ld_unit_zero (S := S64x32) zeroOff, View.ld_unit_zero (S := S1x32) zeroOff]
  obtain ⟨e00, e01, e10, e11, e20, e21, e30, e31⟩ := idx_facts t
  funext j
  refine (pay_at _ _ _ j).trans ?_
  show FloatOps.addf (F := Ideal) (φ := .f32)
        (∑ k : Fin 64, feats V c (((cfg1.win 0).blk t).view.emb (lrow j k)) * weights V c (((cfg1.win 1).blk t).view.emb (rcol j k)))
        (biasRow V c (((cfg1.win 2).blk t).view.emb (bcol j)))
    = FloatOps.addf (F := Ideal) (φ := .f32)
        (∑ k : Fin 64, feats V c (ValueIdx.ix2 (n0 := 100000) (n1 := 64) ((((cfg1.win 3).blk t).view.emb j) 0) k) * weights V c (ValueIdx.ix2 (n0 := 64) (n1 := 32) k ((((cfg1.win 3).blk t).view.emb j) 1)))
        (biasRow V c (rowAt (d := 32) ((((cfg1.win 3).blk t).view.emb j) 1)))
  have hA : ∀ k : Fin 64, ((cfg1.win 0).blk t).view.emb (lrow j k) = ValueIdx.ix2 (n0 := 100000) (n1 := 64) ((((cfg1.win 3).blk t).view.emb j) 0) k := fun k => by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  have hW : ∀ k : Fin 64, ((cfg1.win 1).blk t).view.emb (rcol j k) = ValueIdx.ix2 (n0 := 64) (n1 := 32) k ((((cfg1.win 3).blk t).view.emb j) 1) := fun k => by
    funext a; apply Fin.ext
    match a with
    | ⟨0, _⟩ => show win1_1.index t (0 : Fin 2) * 64 + 1 * k.val = k.val; omega
    | ⟨1, _⟩ => show win1_1.index t (1 : Fin 2) * 32 + 1 * (j 1).val = win1_3.index t (1 : Fin 2) * 32 + 1 * (j 1).val; omega
  have hB : ((cfg1.win 2).blk t).view.emb (bcol j) = rowAt (d := 32) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 32 + 1 * (j 1).val = win1_3.index t (1 : Fin 2) * 32 + 1 * (j 1).val; omega
  have hsum : (∑ k : Fin 64, feats V c (((cfg1.win 0).blk t).view.emb (lrow j k)) * weights V c (((cfg1.win 1).blk t).view.emb (rcol j k)))
      = ∑ k : Fin 64, feats V c (ValueIdx.ix2 (n0 := 100000) (n1 := 64) ((((cfg1.win 3).blk t).view.emb j) 0) k) * weights V c (ValueIdx.ix2 (n0 := 64) (n1 := 32) k ((((cfg1.win 3).blk t).view.emb j) 1)) :=
    Finset.sum_congr rfl fun k _ => by rw [hA k, hW k]
  rw [hsum, hB]

/-- An index of the output array is in point `t`'s block iff each coordinate is in the block's range on its axis. -/
theorem mem_blk (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v63).slice (win1_3.rect t)).set ↔ _
  rw [View.set_slice_whole, Rect.mem_set_unit]
  exact Iff.rfl

/-- Every row lies in some point's block: row `r` in block `r / 5000`. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  refine ⟨⟨(i 0).val / 5000, by show (i 0).val / 5000 < 20; omega⟩, flush1_3 _, ?_⟩
  rw [mem_blk]
  obtain ⟨e00, e01, e10, e11, e20, e21, e30, e31⟩ := idx_facts ⟨(i 0).val / 5000, by show (i 0).val / 5000 < 20; omega⟩
  intro a
  match a with
  | ⟨0, _⟩ => show win1_3.index _ (0 : Fin 2) * 5000 ≤ (i 0).val ∧ (i 0).val < win1_3.index _ (0 : Fin 2) * 5000 + 5000; rw [e30]; show (i 0).val / 5000 * 5000 ≤ (i 0).val ∧ (i 0).val < (i 0).val / 5000 * 5000 + 5000; omega
  | ⟨1, _⟩ => show win1_3.index _ (1 : Fin 2) * 32 ≤ (i 1).val ∧ (i 1).val < win1_3.index _ (1 : Fin 2) * 32 + 32; rw [e31]; omega

/-- THE OUTPUT ARRAY after the region: the output layer of the arrays the region is entered with. -/
theorem final (c : Dev nD) :
    (dat1 V c).arrAt 3 cfg1.N = output (feats V c) (weights V c) (biasRow V c) :=
  (dat1 V c).arrAt_eq_of_cover 3 _ (fun t _ => flushed_eq V c t) cover

end Cert.KernelIdeal.OutputRegion

end
-- ==== Proof.KernelValue.lean ====
/-
  The kernel program's result as one function of the launched arguments.

  Reading the run backwards from the returned array. The second region leaves in it the output layer of the three
  arrays it is entered with: the aggregate of the hidden activations, the second weights, the second bias as a row.
  The stretch of host operations before it computes that aggregate from the first region's output (the endpoints of
  the edges and the normalisation still standing in their buffers, which neither the first region nor that stretch
  writes). The first region leaves in its output the hidden layer of the aggregate of the input features, the first
  weights and the first bias as a row. Composed:
      result = output (A (hidden (A x e) W1 b1) e) W2 b2,
  `A` the normalised aggregation along the edges `e` — stated with the reference's own stage functions, so that the
  reference's result is the same term of its own arguments.
-/
import proofs.«132676_j90486370992276_1_alg».proof.Proof.KernelHost
import proofs.«132676_j90486370992276_1_alg».proof.Proof.HiddenRegion
import proofs.«132676_j90486370992276_1_alg».proof.Proof.OutputRegion

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen GcnDense
open Cert.ReferenceIdeal.ReadP (val_main_v1 val_main_v3 val_main_v13 val_main_v36 val_main_v38 val_main_v66)

variable (m : (ℓ : Loc nD τ sig) → Buf (Elt Ideal) ℓ) (ρ : Dev nD → PrngReg) (c : Dev nD)

/-- The hidden activations: what the first region leaves in its output array, of the launched arguments. -/
theorem hidden_value :
    W4 m ρ c (Proc.devRef .tc main_v38)
      = hidden (val_main_v36 (F := Ideal) (m ((c : Thread nD τ).loc main_arg0)) (m ((c : Thread nD τ).loc main_arg1))) (m ((c : Thread nD τ).loc main_arg2)) (val_main_v38 (F := Ideal) (m ((c : Thread nD τ).loc main_arg3))) := by
  refine (W4_arr m ρ c 3).trans ?_
  rw [HiddenRegion.final (V3 m ρ) c]
  have hf : HiddenRegion.feats (V3 m ρ) c = val_main_v36 (F := Ideal) (m ((c : Thread nD τ).loc main_arg0)) (m ((c : Thread nD τ).loc main_arg1)) :=
    HostStretch.entry_feats (W0 m ρ c)
  have hw : HiddenRegion.weights (V3 m ρ) c = (m ((c : Thread nD τ).loc main_arg2)) := HostStretch.entry_weights (W0 m ρ c)
  have hb : HiddenRegion.biasRow (V3 m ρ) c = val_main_v38 (F := Ideal) (m ((c : Thread nD τ).loc main_arg3)) :=
    (HostStretch.entry_bias (W0 m ρ c)).trans (HostStretch.row64_eq _)
  rw [hf, hw, hb]

/-- THE RESULT: what the second region leaves in the returned array, of the launched arguments. -/
theorem result_value :
    W6 m ρ c (Proc.devRef .tc main_v63)
      = output (val_main_v36 (F := Ideal)
                  (hidden (val_main_v36 (F := Ideal) (m ((c : Thread nD τ).loc main_arg0)) (m ((c : Thread nD τ).loc main_arg1))) (m ((c : Thread nD τ).loc main_arg2)) (val_main_v38 (F := Ideal) (m ((c : Thread nD τ).loc main_arg3))))
                  (m ((c : Thread nD τ).loc main_arg1)))
               (m ((c : Thread nD τ).loc main_arg4)) (val_main_v66 (F := Ideal) (m ((c : Thread nD τ).loc main_arg5))) := by
  refine (W6_arr m ρ c 3).trans ?_
  rw [OutputRegion.final (V5 m ρ) c]
  -- the buffers the first region does not write, at its exit: as at its entry
  have h1 : W4 m ρ c (Proc.devRef .tc main_v1) = val_main_v1 (F := Ideal) (m ((c : Thread nD τ).loc main_arg1)) :=
    (W4_of_ne m ρ c main_v1 (by decide)).trans (HostStretch.entry_src (W0 m ρ c))
  have h3 : W4 m ρ c (Proc.devRef .tc main_v3) = val_main_v3 (F := Ideal) (m ((c : Thread nD τ).loc main_arg1)) :=
    (W4_of_ne m ρ c main_v3 (by decide)).trans (HostStretch.entry_dst (W0 m ρ c))
  have h13 : W4 m ρ c (Proc.devRef .tc main_v13) = val_main_v13 (F := Ideal) (m ((c : Thread nD τ).loc main_arg1)) :=
    (W4_of_ne m ρ c main_v13 (by decide)).trans (HostStretch.entry_norm (W0 m ρ c))
  have h4 : W4 m ρ c (Proc.devRef .tc main_arg4) = (m ((c : Thread nD τ).loc main_arg4)) :=
    (W4_of_ne m ρ c main_arg4 (by decide)).trans (HostStretch.entry_weights2 (W0 m ρ c))
  have h5 : W4 m ρ c (Proc.devRef .tc main_arg5) = (m ((c : Thread nD τ).loc main_arg5)) :=
    (W4_of_ne m ρ c main_arg5 (by decide)).trans (HostStretch.entry_bias2 (W0 m ρ c))
  have hf : OutputRegion.feats (V5 m ρ) c = val_main_v36 (F := Ideal) (W4 m ρ c (Proc.devRef .tc main_v38)) (m ((c : Thread nD τ).loc main_arg1)) :=
    HostStretch.mid_feats (W4 m ρ c) (m ((c : Thread nD τ).loc main_arg1)) h1 h3 h13
  have hw : OutputRegion.weights (V5 m ρ) c = (m ((c : Thread nD τ).loc main_arg4)) := (HostStretch.mid_weights (W4 m ρ c)).trans h4
  have hb : OutputRegion.biasRow (V5 m ρ) c = val_main_v66 (F := Ideal) (m ((c : Thread nD τ).loc main_arg5)) := by
    refine (HostStretch.mid_bias (W4 m ρ c)).trans ?_
    rw [h5]
    exact HostStretch.row32_eq _
  rw [hf, hw, hb, hidden_value m ρ c]

end Cert.KernelIdeal.Result

end
-- ==== Proof.RefLayers.lean ====
/-
  The reference's two dense layers, read as whole-array functions of what they are applied to.

  After its first aggregation the reference multiplies the aggregate `A : [100000, 64]` by `W1`, adds the bias
  spread over the rows and takes the maximum with zero: entry `(i, j)` is `max (∑ₖ A(i,k) · W1(k,j) + b1(j)) 0`, which is
  `GcnDense.hidden A W1 (b1 as a row)`. Its second aggregation is THE SAME chain of operations (normalise, gather along
  the edges, scatter-add into the nodes, normalise) applied to the hidden activations in place of the input features;
  the result is `∑ₖ A'(i,k) · W2(k,j) + b2(j)`, which is `GcnDense.output A' W2 (b2 as a row)`. The aggregation itself
  is never opened: it stands as the function it is.
-/
import proofs.«132676_j90486370992276_1_alg».proof.Proof.RefRead
import proofs.«132676_j90486370992276_1_alg».proof.Proof.DenseSpec
import Idealize.ShloMosaic.Lib.ValueIdx

noncomputable section

namespace Cert.ReferenceIdeal.Layers

open Idealize.ShloMosaic Idealize.ShloMosaic.TcCoe Idealize.SL.Sem
open Cert.ReferenceIdeal Cert.ReferenceIdeal.Gen Cert.ReferenceIdeal.ReadP GcnDense

/-- The hidden activations: the hidden layer of the first aggregate, the weights, and the bias as a row. -/
theorem hidden_eq (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) :
    val_main_v41 (F := Ideal) x0 x1 x2 x3 = hidden (val_main_v36 (F := Ideal) x0 x1) x2 (val_main_v38 (F := Ideal) x3) := by
  funext i
  rw [val_main_v41_apply, val_main_v40_apply, val_main_v37_apply, val_main_v39_apply, val_main_call1_v0_apply, val_main_call1_cst_apply]
  have el : ∀ k : Fin 64, lidx_main_v37 i k = ValueIdx.ix2 (n0 := 100000) (n1 := 64) (i 0) k := fun k => funext fun a => Fin.ext (by
    match a with
    | ⟨0, _⟩ => rfl
    | ⟨1, _⟩ => rfl)
  have er : ∀ k : Fin 64, ridx_main_v37 i k = ValueIdx.ix2 (n0 := 64) (n1 := 64) k (i 1) := fun k => funext fun a => Fin.ext (by
    match a with
    | ⟨0, _⟩ => rfl
    | ⟨1, _⟩ => rfl)
  have eb : idx_main_v39 i = rowAt (d := 64) (i 1) := funext fun a => Fin.ext (by
    match a with
    | ⟨0, _⟩ => rfl
    | ⟨1, _⟩ => rfl)
  have hsum : (∑ k : Fin 64, val_main_v36 (F := Ideal) x0 x1 (lidx_main_v37 i k) * x2 (ridx_main_v37 i k))
      = ∑ k : Fin 64, val_main_v36 (F := Ideal) x0 x1 (ValueIdx.ix2 (n0 := 100000) (n1 := 64) (i 0) k) * x2 (ValueIdx.ix2 (n0 := 64) (n1 := 64) k (i 1)) :=
    Finset.sum_congr rfl fun k _ => by rw [el k, er k]
  rw [hsum, eb]
  rfl

/-- The result: the output layer of the second aggregate, the weights, and the bias as a row. -/
theorem output_eq (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) :
    val_main_v68 (F := Ideal) x0 x1 x2 x3 x4 x5 = output (val_main_v64 (F := Ideal) x0 x1 x2 x3) x4 (val_main_v66 (F := Ideal) x5) := by
  funext i
  rw [val_main_v68_apply, val_main_v65_apply, val_main_v67_apply]
  have el : ∀ k : Fin 64, lidx_main_v65 i k = ValueIdx.ix2 (n0 := 100000) (n1 := 64) (i 0) k := fun k => funext fun a => Fin.ext (by
    match a with
    | ⟨0, _⟩ => rfl
    | ⟨1, _⟩ => rfl)
  have er : ∀ k : Fin 64, ridx_main_v65 i k = ValueIdx.ix2 (n0 := 64) (n1 := 32) k (i 1) := fun k => funext fun a => Fin.ext (by
    match a with
    | ⟨0, _⟩ => rfl
    | ⟨1, _⟩ => rfl)
  have eb : idx_main_v67 i = rowAt (d := 32) (i 1) := funext fun a => Fin.ext (by
    match a with
    | ⟨0, _⟩ => rfl
    | ⟨1, _⟩ => rfl)
  have hsum : (∑ k : Fin 64, val_main_v64 (F := Ideal) x0 x1 x2 x3 (lidx_main_v65 i k) * x4 (ridx_main_v65 i k))
      = ∑ k : Fin 64, val_main_v64 (F := Ideal) x0 x1 x2 x3 (ValueIdx.ix2 (n0 := 100000) (n1 := 64) (i 0) k) * x4 (ValueIdx.ix2 (n0 := 64) (n1 := 32) k (i 1)) :=
    Finset.sum_congr rfl fun k _ => by rw [el k, er k]
  rw [hsum, eb]
  rfl

variable {F : FTy → Type} [FloatOps F]

/-- The second aggregation is the first one's chain of operations, applied to the hidden activations. -/
theorem second_aggregate (x0 : (⟨S100000x64, .f32⟩ : BufTy).Contents (Elt F)) (x1 : (⟨S2x1250000, .i32⟩ : BufTy).Contents (Elt F)) (x2 : (⟨S64x64, .f32⟩ : BufTy).Contents (Elt F)) (x3 : (⟨S64, .f32⟩ : BufTy).Contents (Elt F)) :
    val_main_v64 (F := F) x0 x1 x2 x3 = val_main_v36 (F := F) (val_main_v41 (F := F) x0 x1 x2 x3) x1 := rfl

end Cert.ReferenceIdeal.Layers

end
-- ==== Proof.lean ====
/-
  A two-layer graph convolution: the kernel program against the reference.

  Both programs compute, from node features `x : [100000, 64]`, an edge array `e : [2, 1250000]`, weights `W1, W2` and
  biases `b1, b2`,
      out = A(h, e) · W2 + b2,    h = max (A(x, e) · W1 + b1) 0,
  where `A(f, e)` is the symmetric-normalised aggregation along the edges: gather the source rows of `f`, scale them
  by the source's `deg^(-1/2)`, scatter-add them into the target rows, scale by the target's `deg^(-1/2)` (the degree
  counted from the edges' targets, the factor `0` on nodes of degree `0`).

  The aggregation is the same host operations in both programs and is never opened. They differ in the two dense
  layers: the reference multiplies whole arrays on the host; the kernel program runs each layer as a pallas_call over
  20 blocks of 5000 rows, the matrix unit's product taken of operands narrowed to bf16 into a zero accumulator. At the
  exact reading of floats the narrowing is the identity and the product into zero is the plain sum over the 64
  features, so a block's entry `(y₀, y₁)` at point `t` is the whole layer's entry `(5000·t + y₀, y₁)`; the blocks
  cover every row, so each region's output array is the whole layer (`GcnDense.hidden`, `GcnDense.output`) of the
  arrays it is entered with. The equality of the two results needs no law of the extended reals beyond that: the two
  sums have the same terms in the same order, so the inputs' finiteness is never used.

  The three frames: the two kernel programs' are their generated frames; the reference's is its run with the result
  dropped. The idealisation's ledger is empty.
-/
import proofs.«132676_j90486370992276_1_alg».proof.Defs
import proofs.«132676_j90486370992276_1_alg».proof.Proof.Gen.Kernel
import proofs.«132676_j90486370992276_1_alg».proof.Proof.Gen.Kernel.Skeleton
import proofs.«132676_j90486370992276_1_alg».proof.Proof.Gen.Kernel.Launch
import proofs.«132676_j90486370992276_1_alg».proof.Proof.Gen.Kernel.Points
import proofs.«132676_j90486370992276_1_alg».proof.Proof.Gen.Kernel.Frame
import proofs.«132676_j90486370992276_1_alg».proof.Proof.Gen.KernelIdeal
import proofs.«132676_j90486370992276_1_alg».proof.Proof.Gen.KernelIdeal.Skeleton
import proofs.«132676_j90486370992276_1_alg».proof.Proof.Gen.KernelIdeal.Launch
import proofs.«132676_j90486370992276_1_alg».proof.Proof.Gen.KernelIdeal.Points
import proofs.«132676_j90486370992276_1_alg».proof.Proof.Gen.KernelIdeal.Frame
import proofs.«132676_j90486370992276_1_alg».proof.Proof.Gen.ReferenceIdeal
import proofs.«132676_j90486370992276_1_alg».proof.Proof.Gen.Pre_finite_inputs
import proofs.«132676_j90486370992276_1_alg».proof.Proof.RunKept
import proofs.«132676_j90486370992276_1_alg».proof.Proof.KernelValue
import proofs.«132676_j90486370992276_1_alg».proof.Proof.RefLayers
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does its idealisation. -/
theorem frame_kernel_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealisation rewrote nothing: its ledger is empty. -/
theorem preserves : Cert.preserves_Kernel_KernelIdeal := trivial

/-- From memories that agree on the six arguments both programs end with the returned array at
    `output (A (hidden (A x e) W1 b1) e) W2 b2` of those arguments: the kernel program by its run with the result kept
    and the value of its two regions and host stretches; the reference by its run, its two layers read as the same
    whole-array functions, and the agreement of the arguments. -/
theorem algebraic : Cert.algebraic_KernelIdeal_ReferenceIdeal := by
  intro m ρ m' ρ' _ hagree
  refine ⟨fun c => GcnDense.output
      (Cert.ReferenceIdeal.ReadP.val_main_v36 (F := Ideal)
        (GcnDense.hidden (Cert.ReferenceIdeal.ReadP.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2))
          (Cert.ReferenceIdeal.ReadP.val_main_v38 (F := Ideal) (m ((c.tc : Thread Cert.KernelIdeal.nD Cert.KernelIdeal.τ).loc Cert.KernelIdeal.main_arg3))))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg4)) (Cert.ReferenceIdeal.ReadP.val_main_v66 (F := Ideal) (m ((c.tc : Thread Cert.KernelIdeal.nD Cert.KernelIdeal.τ).loc Cert.KernelIdeal.main_arg5))), ?_, ?_⟩
  · exact (θ_run Cert.KernelIdeal.defs _ _).mono
      (fun _ h c => ⟨(h c).1.trans (Cert.KernelIdeal.Result.result_value m ρ c), (h c).2⟩)
      (Cert.KernelIdeal.Kept.run_kept (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5⟩ := hagree c
    rw [Cert.ReferenceIdeal.ReadP.val_main_v68_eq, Cert.ReferenceIdeal.Layers.output_eq,
      Cert.ReferenceIdeal.Layers.second_aggregate, Cert.ReferenceIdeal.Layers.hidden_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
